-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x4096 : Shape := ⟨3, ![32, 2048, 4096]⟩
abbrev S32 : Shape := ⟨1, ![32]⟩
abbrev S16x4096x64 : Shape := ⟨3, ![16, 4096, 64]⟩
abbrev S_ : Shape := ⟨0, ![]⟩

class Facts : Prop where
  bcast_S_S32x2048x4096 : S_.BroadcastsInDim S32x2048x4096 (![] : Fin 0 → Fin S32x2048x4096.rank)
  reducesTo_S32x2048x4096_S_d0_1_2 : S32x2048x4096.ReducesTo [0, 1, 2] S_
  h_S_ : 0 < S_.numel
  bcast_S_S16x4096x64 : S_.BroadcastsInDim S16x4096x64 (![] : Fin 0 → Fin S16x4096x64.rank)
  reducesTo_S16x4096x64_S_d0_1_2 : S16x4096x64.ReducesTo [0, 1, 2] S_
  bcast_S_S32 : S_.BroadcastsInDim S32 (![] : Fin 0 → Fin S32.rank)
  reducesTo_S32_S_d0 : S32.ReducesTo [0] S_

variable [Facts]

def fn {F : FTy → Type} [FloatOps F] (main_arg0 : FVec F S32x2048x4096 .f32) (main_arg1 : IVec S32 32) (main_arg2 : FVec F S16x4096x64 .f32) : IVec S_ 1 :=
  let main_v0 : FVec F S32x2048x4096 .f32 := Host.absf main_arg0
  let main_cst : FVec F S_ .f32 := constant S_ .f32 0x7F800000#32
  let main_v1 : FVec F S32x2048x4096 .f32 := broadcastInDim S32x2048x4096 ![] bcast_S_S32x2048x4096 main_cst
  let main_v2 : IVec S32x2048x4096 1 := cmpf .olt main_v0 main_v1
  let main_c : IVec S_ 1 := constantI S_ 1 1#1
  let main_v3 : IVec S_ 1 := (fun x v => Host.reduce IntOp.andi x v reducesTo_S32x2048x4096_S_d0_1_2 h_S_) main_v2 main_c
  let main_v4 : FVec F S16x4096x64 .f32 := Host.absf main_arg2
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_c_1 : IVec S_ 1 := constantI S_ 1 1#1
  let main_v7 : IVec S_ 1 := (fun x v => Host.reduce IntOp.andi x v reducesTo_S16x4096x64_S_d0_1_2 h_S_) main_v6 main_c_1
  let main_v8 : IVec S_ 1 := andi main_v3 main_v7
  let main_c_2 : IVec S_ 32 := constantI S_ 32 4294967280#32
  let main_v9 : IVec S32 32 := broadcastInDim S32 ![] bcast_S_S32 main_c_2
  let main_v10 : IVec S32 1 := cmpi .sge main_arg1 main_v9
  let main_c_3 : IVec S_ 32 := constantI S_ 32 16#32
  let main_v11 : IVec S32 32 := broadcastInDim S32 ![] bcast_S_S32 main_c_3
  let main_v12 : IVec S32 1 := cmpi .slt main_arg1 main_v11
  let main_v13 : IVec S32 1 := andi main_v10 main_v12
  let main_c_4 : IVec S_ 1 := constantI S_ 1 1#1
  let main_v14 : IVec S_ 1 := (fun x v => Host.reduce IntOp.andi x v reducesTo_S32_S_d0 h_S_) main_v13 main_c_4
  let main_v15 : IVec S_ 1 := andi main_v8 main_v14
  main_v15
-- ==== Kernel.lean ====
abbrev S32x2048x4096 : Shape := ⟨3, ![32, 2048, 4096]⟩
abbrev S32 : Shape := ⟨1, ![32]⟩
abbrev S16x4096x64 : Shape := ⟨3, ![16, 4096, 64]⟩
abbrev S_ : Shape := ⟨0, ![]⟩
abbrev S32x2048x64 : Shape := ⟨3, ![32, 2048, 64]⟩
abbrev S1x512x4096 : Shape := ⟨3, ![1, 512, 4096]⟩
abbrev S1x4096x64 : Shape := ⟨3, ![1, 4096, 64]⟩
abbrev S1 : Shape := ⟨1, ![1]⟩
abbrev S1x512x64 : Shape := ⟨3, ![1, 512, 64]⟩
abbrev S512x4096 : Shape := ⟨2, ![512, 4096]⟩
abbrev S4096x64 : Shape := ⟨2, ![4096, 64]⟩
abbrev S512x64 : Shape := ⟨2, ![512, 64]⟩

abbrev nBuf : Space → Nat
  | .hbm => 26
  | .vmem => 6
  | .smem => 1
  | _ => 0

abbrev bufTy : (tb : Table) → Fin (tcTables nBuf tb) → BufTy
  | .hbm, ⟨0, _⟩ => ⟨S32x2048x4096, .f32⟩
  | .hbm, ⟨1, _⟩ => ⟨S32, .i32⟩
  | .hbm, ⟨2, _⟩ => ⟨S16x4096x64, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S_, .i32⟩
  | .hbm, ⟨18, _⟩ => ⟨S_, .i1⟩
  | .hbm, ⟨19, _⟩ => ⟨S32, .i1⟩
  | .hbm, ⟨20, _⟩ => ⟨S32, .i1⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S16x4096x64, .bf16⟩
  | .hbm, ⟨25, _⟩ => ⟨S32x2048x64, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x64, .bf16⟩
  | .local _ .vmem, ⟨3, _⟩ => ⟨S1x4096x64, .bf16⟩
  | .local _ .vmem, ⟨4, _⟩ => ⟨S1x512x64, .f32⟩
  | .local _ .vmem, ⟨5, _⟩ => ⟨S1x512x64, .f32⟩
  | .local _ .smem, ⟨0, _⟩ => ⟨S32, .i32⟩
  | _, _ => ⟨S32x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S32 : S_.BroadcastsInDim S32 (![] : Fin 0 → Fin S32.rank)
  bitsLt_bf16_f32 : FTy.bits .bf16 < FTy.bits .f32
  numel1_S1 : S1.numel = 1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  dot_S512x4096_S4096x64_S512x64_1_0_0_1_n_n_wf : DotDims.WF S512x4096 S4096x64 S512x64 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S32x2048x4096.size a
  hwx0_0 : ∀ i : grid0.Coords, EltTy.bits .f32 = 32 ∨ (Rect.block (s := S32x2048x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x2048x64.size a
  hwx0_2 : ∀ i : grid0.Coords, EltTy.bits .f32 = 32 ∨ (Rect.block (s := S32x2048x64) S1x512x64.size (cc0_transform_2 i) (hinb0_2 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev spec0_0 : Pipeline.WinSpec sig grid0.rank :=
  Pipeline.WinSpec.ofSpec (Memref.whole main_arg0) S1x512x4096.size reads0_0 false false 2 stage0_0 sem0_0 nbuf0_0 hstage0_0

abbrev spec0_1 : Pipeline.WinSpec sig grid0.rank :=
  Pipeline.WinSpec.ofSpec (Memref.whole main_v1) S1x4096x64.size reads0_1 false false 2 stage0_1 sem0_1 nbuf0_1 hstage0_1

abbrev spec0_2 : Pipeline.WinSpec sig grid0.rank :=
  Pipeline.WinSpec.ofSpec (Memref.whole main_v2) S1x512x64.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x4096x64.size a ≤ S16x4096x64.size a), EltTy.bits .bf16 = 32 ∨ (Rect.block (s := S16x4096x64) S1x4096x64.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x2048x4096 : Shape := ⟨3, ![32, 2048, 4096]⟩
abbrev S32 : Shape := ⟨1, ![32]⟩
abbrev S16x4096x64 : Shape := ⟨3, ![16, 4096, 64]⟩
abbrev S_ : Shape := ⟨0, ![]⟩
abbrev S32x1 : Shape := ⟨2, ![32, 1]⟩
abbrev S32x4096x64 : Shape := ⟨3, ![32, 4096, 64]⟩
abbrev S32x2048x64 : Shape := ⟨3, ![32, 2048, 64]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x4096, .f32⟩
  | .hbm, ⟨1, _⟩ => ⟨S32, .i32⟩
  | .hbm, ⟨2, _⟩ => ⟨S16x4096x64, .f32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32x4096x64, .f32⟩
  | .hbm, ⟨12, _⟩ => ⟨S32x2048x64, .f32⟩
  | _, _ => ⟨S32x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  gather_S16x4096x64_S32x1_S32x4096x64_12_0_n_n_0_1_1409664_wf : GatherDims.WF S16x4096x64 S32x1 S32x4096x64 [1, 2] [0] [] [0] [] 1 ![1, 4096, 64]
  dot_S32x2048x4096_S32x4096x64_S32x2048x64_2_1_1_2_0_0_wf : DotDims.WF S32x2048x4096 S32x4096x64 S32x2048x64 [2] [1] [1] [2] [0] [0]

variable [Facts₀]

def gather_S16x4096x64_S32x1_S32x4096x64_12_0_n_n_0_1_1409664 : GatherDims S16x4096x64 S32x1 S32x4096x64 where
  offsetDims := [1, 2]
  collapsedSliceDims := [0]
  operandBatchingDims := []
  startIndicesBatchingDims := []
  startIndexMap := [0]
  indexVectorDim := 1
  sliceSizes := ![1, 4096, 64]
  wf := gather_S16x4096x64_S32x1_S32x4096x64_12_0_n_n_0_1_1409664_wf
def dot_S32x2048x4096_S32x4096x64_S32x2048x64_2_1_1_2_0_0 : DotDims S32x2048x4096 S32x4096x64 S32x2048x64 where
  lhsContracting := [2]
  rhsContracting := [1]
  lhsNonContracting := [1]
  rhsNonContracting := [2]
  lhsBatch := [0]
  rhsBatch := [0]
  wf := dot_S32x2048x4096_S32x4096x64_S32x2048x64_2_1_1_2_0_0_wf

class Facts : Prop extends Facts₀ where

variable [Facts]
-- ==== Proof.IdWords.lean ====
/-
  One adapter id, as a 32-bit word. The kernel's host code reduces the id modulo 16 (the remainder of the
  truncating division, moved up by 16 when it is negative: the floor modulus); the reference normalises a
  negative index the NumPy way (add 16 when negative) and its gather then clamps into [0, 15]. On the
  NumPy-valid index range of an axis of extent 16, that is -16 ≤ id < 16, the two agree: both are the id when
  it is non-negative and id + 16 when it is negative, a number in [0, 16), so the clamp does nothing.
  The range is finite (32 words), and every statement below is checked word by word.
-/
import Idealize.ShloMosaic.PureOps
import Mathlib.Tactic.IntervalCases

namespace Cert.IdWords

open Idealize.ShloMosaic

/-- The floor modulus by 16 as the host code spells it: the divisor guarded against zero, the truncating
    remainder, and the correction by the divisor where the remainder's sign differs from the divisor's. -/
def floorMod16 (w : BitVec 32) : BitVec 32 :=
  let d : BitVec 32 := Scalar.select (IntOp.cmpi .eq (16#32) (0#32)) (1#32) (16#32)
  let r : BitVec 32 := IntOp.remsi .host w d
  Scalar.select
    (IntOp.andi (IntOp.cmpi .ne (IntOp.cmpi .slt r (0#32)) (IntOp.cmpi .slt d (0#32))) (IntOp.cmpi .ne r (0#32)))
    (IntOp.addi r d) r

/-- NumPy's normalisation of an index into an axis of extent 16: a negative one counts from the end. -/
def wrap16 (w : BitVec 32) : BitVec 32 :=
  Scalar.select (IntOp.cmpi .slt w (0#32)) (IntOp.addi w (16#32)) w

/-- The word is a valid NumPy index of an axis of extent 16: -16 ≤ w < 16, signed. -/
def Valid (w : BitVec 32) : Prop := (-16 : Int) ≤ w.toInt ∧ w.toInt < 16

/-- The two signed comparisons "-16 ≤ w" and "w < 16", each answering the bit 1, say the word is valid. -/
theorem valid_of_cmp (w : BitVec 32) (h0 : IntOp.cmpi .sge w (4294967280#32) = 1#1) (h1 : IntOp.cmpi .slt w (16#32) = 1#1) :
    Valid w := by
  have ob : ∀ b : Bool, BitVec.ofBool b = 1#1 ↔ b = true := by decide
  unfold IntOp.cmpi at h0 h1
  rw [ob] at h0 h1
  simp only [BitVec.slt, BitVec.sle, decide_eq_true_eq] at h0 h1
  have e0 : (4294967280#32 : BitVec 32).toInt = -16 := by decide
  have e1 : (16#32 : BitVec 32).toInt = 16 := by decide
  rw [e0] at h0; rw [e1] at h1
  exact ⟨h0, h1⟩

/-- A valid word is one of the 32 words -16, …, 15. -/
theorem valid_cases (w : BitVec 32) (h : Valid w) : ∃ k : Int, -16 ≤ k ∧ k < 16 ∧ w = BitVec.ofInt 32 k :=
  ⟨w.toInt, h.1, h.2, (BitVec.ofInt_toInt).symm⟩

/-- On the valid range the floor modulus is the NumPy normalisation, the result is a row number below 16,
    and read as a signed integer it is that same non-negative number (so a clamp into [0, 15] keeps it). -/
theorem floorMod16_eq_wrap16 (w : BitVec 32) (h : Valid w) :
    floorMod16 w = wrap16 w ∧ (wrap16 w).toNat < 16 ∧ (wrap16 w).toInt.toNat = (wrap16 w).toNat := by
  obtain ⟨k, h0, h1, rfl⟩ := valid_cases w h
  interval_cases k <;> decide

end Cert.IdWords
-- ==== Proof.PreIds.lean ====
/-
  What the precondition says about the adapter ids: its last conjunct is "every id is at least -16 and below 16"
  (an all-reduction of the two signed comparisons, element by element), so under the precondition every id is
  a valid NumPy index of an axis of extent 16. The statement is for any float instance: the conjunct is about
  integer words only.
-/
import proofs.«406833_j34007551050178_3_alg».proof.Pre_finite_inputs
import proofs.«406833_j34007551050178_3_alg».proof.Proof.IdWords
import Idealize.ShloMosaic.Lib.ReduceAll
import Idealize.ShloMosaic.Lib.ValueIdx

namespace Cert.PreIds

open Idealize.ShloMosaic Cert.Pre_finite_inputs Cert.IdWords

variable [hP : Cert.Pre_finite_inputs.Facts]

/-- The scalar shape has one index. -/
instance : Subsingleton S_.Idx := ⟨fun a b => funext fun d => d.elim0⟩

theorem and1 : ∀ (a b : BitVec 1), IntOp.andi a b = 1#1 ↔ a = 1#1 ∧ b = 1#1 := by decide

/-- Under the precondition every adapter id is valid. -/
theorem valid_of_pre {F : FTy → Type} [FloatOps F] (a0 : FVec F S32x2048x4096 .f32) (a1 : IVec S32 32)
    (a2 : FVec F S16x4096x64 .f32) (h : fn (F := F) a0 a1 a2 = fun _ => 1#1) (i : S32.Idx) : Valid (a1 i) := by
  have e := congrFun h ValueIdx.ix0
  dsimp only [fn] at e
  have e14 := ((and1 _ _).mp e).2
  have e13 := Host.reduce_andi_all _ _ hP.reducesTo_S32_S_d0 hP.h_S_ ValueIdx.ix0 e14 i
  have e2 := (and1 _ _).mp e13
  exact valid_of_cmp (a1 i) e2.1 e2.2

end Cert.PreIds
-- ==== Proof.KernelTable.lean ====
/-
  The prefetched table the pipeline's index map for the weight window reads. The host code before the kernel
  fills it with the floor modulus by 16 of each adapter id, so the table's word for batch b is
  floorMod16 (id b), whatever the ids are; for valid ids every word is a row number below 16.
-/
import proofs.«406833_j34007551050178_3_alg».proof.Proof.Gen.Kernel.Frame
import proofs.«406833_j34007551050178_3_alg».proof.Proof.IdWords
import Idealize.ShloMosaic.Lib.StableHlo.Run

noncomputable section

namespace Cert.Kernel.Table

open Cert.Kernel Cert.Kernel.Gen Idealize.ShloMosaic Idealize.ShloMosaic.TcCoe Idealize.SL.Sem Cert.IdWords
open Idealize.ShloMosaic.StableHlo

variable {F : FTy → Type} [FloatOps F]
variable (m : (ℓ : Loc nD τ sig) → Buf (Elt F) ℓ)

/-- The adapter ids as launched (the program runs on one device). -/
abbrev ids : S32.Idx → BitVec 32 := m (((0 : Dev nD) : Thread nD τ).loc main_arg1)

set_option maxHeartbeats 1000000 in
/-- The table's contents when the kernel is launched: the host operations before it, composed, are the floor
    modulus by 16 of each id. -/
theorem tbl_eq : (tbl m 0 : S32.Idx → BitVec 32) = fun i => floorMod16 (ids m i) := by
  unfold tbl
  show V m 0 main_v0 = _
  unfold V
  simp only [hostOps0, hostOps0_1, hostOps0_2, List.flatten_cons, List.flatten_nil, List.append_nil, List.cons_append, List.nil_append]
  after_results
  rfl

/-- One word of the table. -/
theorem tbl_apply (x : S32.Idx) : tbl m 0 x = floorMod16 (ids m x) := congrFun (tbl_eq m) x

/-- For valid ids every word of the table is a row number below 16. -/
theorem tbl_lt (hv : ∀ i, Valid (ids m i)) (x : S32.Idx) : (tbl m 0 x).toNat < 16 := by
  rw [tbl_apply]
  obtain ⟨h1, h2, -⟩ := floorMod16_eq_wrap16 _ (hv x)
  rw [h1]; exact h2

end Cert.Kernel.Table

end
-- ==== Proof.KernelOk.lean ====
/-
  The pipeline's side condition on the prefetched table: at every grid point the weight window's block, whose
  leading block index is the table's word for the point's batch, must lie inside the [16, 4096, 64] weight
  array and transfer whole words. For valid ids the word is a row number below 16, so the block is one row's
  whole [4096, 64] slab: inside the array, and all 4096 sublane rows of it, which is whole words at any packing.
-/
import proofs.«406833_j34007551050178_3_alg».proof.Proof.KernelTable

noncomputable section

namespace Cert.Kernel.Table

open Cert.Kernel Cert.Kernel.Gen Idealize.ShloMosaic Idealize.ShloMosaic.TcCoe Idealize.SL.Sem Cert.IdWords

variable {F : FTy → Type} [FloatOps F]
variable (m : (ℓ : Loc nD τ sig) → Buf (Elt F) ℓ)

/-- The slab of a row below 16 is a block of the weight array, and it takes every sublane row of its slab. -/
theorem ok_block (ix : Fin 3 → Nat) (w : BitVec 32) (hw : w.toNat < 16) (e : ix = ![w.toNat, 0, 0]) :
    ∃ h : (∀ a, (ix a + 1) * S1x4096x64.size a ≤ S16x4096x64.size a),
      EltTy.bits .bf16 = 32 ∨ (Rect.block (s := S16x4096x64) S1x4096x64.size ix h).WholeWords (EltTy.packing .bf16) := by
  subst e
  have h : ∀ a, ((![w.toNat, 0, 0] : Fin 3 → Nat) a + 1) * S1x4096x64.size a ≤ S16x4096x64.size a := by
    intro a
    fin_cases a <;> simp [S1x4096x64, S16x4096x64] <;> omega
  exact ⟨h, Or.inr (Or.inr ⟨by decide, rfl, by show (![w.toNat, 0, 0] : Fin 3 → Nat) 1 * _ = 0; simp, rfl⟩)⟩

/-- For valid ids the pipeline's side condition holds. -/
theorem ok_of_valid (hv : ∀ i, Valid (ids m i)) : Ok m := fun i => ok_block _ _ (tbl_lt m hv _) rfl

end Cert.Kernel.Table

end
-- ==== Proof.KernelIdealPiece.lean ====
/-
  What one run of the kernel body leaves in the output's staging buffer: the body stores once, over the whole
  [1, 512, 64] block, the product of the two blocks it loaded; so the buffer holds that product (the payload)
  of the x block and the weight block it was handed, whatever the float instance.
-/
import proofs.«406833_j34007551050178_3_alg».proof.Proof.Gen.KernelIdeal.Frame
import Idealize.ShloMosaic.Lib.Pipeline.Value

set_option maxRecDepth 16384

noncomputable section

namespace Cert.KernelIdeal.Piece

open Cert.KernelIdeal Cert.KernelIdeal.Gen Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl

/-- The output block after the body is the payload of the two input blocks. -/
theorem out_eq (c : Dev nD) (i : grid0.Coords) (arg3 : Memref sig .tc .vmem S1x512x4096 .f32) (harg3 : arg3.IsWhole)
    (arg4 : Memref sig .tc .vmem S1x4096x64 .bf16) (harg4 : arg4.IsWhole) (arg5 : Memref sig .tc .vmem S1x512x64 .f32) (harg5 : arg5.IsWhole)
    (x0 : Vec F S1x512x4096 .f32) (x1 : Vec F S1x4096x64 .bf16) (xt0 : TbBuf0 (F := F) c tbM0_0) :
    out0_A_2 (F := F) c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero hz3]
  simp only [View.readAt_eq_ld, harg3.read_unread, harg4.read_unread, View.ld_unit_zero (S := S1x512x4096) hz3,
    View.ld_unit_zero (S := S1x4096x64) hz3]

end Cert.KernelIdeal.Piece

end
-- ==== Proof.KernelIdealTable.lean ====
/-
  The prefetched table the pipeline's index map for the weight window reads. The host code before the kernel
  fills it with the floor modulus by 16 of each adapter id, so the table's word for batch b is
  floorMod16 (id b), whatever the ids are; for valid ids every word is a row number below 16.
-/
import proofs.«406833_j34007551050178_3_alg».proof.Proof.Gen.KernelIdeal.Frame
import proofs.«406833_j34007551050178_3_alg».proof.Proof.IdWords
import Idealize.ShloMosaic.Lib.StableHlo.Run

noncomputable section

namespace Cert.KernelIdeal.Table

open Cert.KernelIdeal Cert.KernelIdeal.Gen Idealize.ShloMosaic Idealize.ShloMosaic.TcCoe Idealize.SL.Sem Cert.IdWords
open Idealize.ShloMosaic.StableHlo

variable {F : FTy → Type} [FloatOps F]
variable (m : (ℓ : Loc nD τ sig) → Buf (Elt F) ℓ)

/-- The adapter ids as launched (the program runs on one device). -/
abbrev ids : S32.Idx → BitVec 32 := m (((0 : Dev nD) : Thread nD τ).loc main_arg1)

set_option maxHeartbeats 1000000 in
/-- The table's contents when the kernel is launched: the host operations before it, composed, are the floor
    modulus by 16 of each id. -/
theorem tbl_eq : (tbl m 0 : S32.Idx → BitVec 32) = fun i => floorMod16 (ids m i) := by
  unfold tbl
  show V m 0 main_v0 = _
  unfold V
  simp only [hostOps0, hostOps0_1, hostOps0_2, List.flatten_cons, List.flatten_nil, List.append_nil, List.cons_append, List.nil_append]
  after_results
  rfl

/-- One word of the table. -/
theorem tbl_apply (x : S32.Idx) : tbl m 0 x = floorMod16 (ids m x) := congrFun (tbl_eq m) x

/-- For valid ids every word of the table is a row number below 16. -/
theorem tbl_lt (hv : ∀ i, Valid (ids m i)) (x : S32.Idx) : (tbl m 0 x).toNat < 16 := by
  rw [tbl_apply]
  obtain ⟨h1, h2, -⟩ := floorMod16_eq_wrap16 _ (hv x)
  rw [h1]; exact h2

end Cert.KernelIdeal.Table

end
-- ==== Proof.KernelIdealOk.lean ====
/-
  The pipeline's side condition on the prefetched table: at every grid point the weight window's block, whose
  leading block index is the table's word for the point's batch, must lie inside the [16, 4096, 64] weight
  array and transfer whole words. For valid ids the word is a row number below 16, so the block is one row's
  whole [4096, 64] slab: inside the array, and all 4096 sublane rows of it, which is whole words at any packing.
-/
import proofs.«406833_j34007551050178_3_alg».proof.Proof.KernelIdealTable

noncomputable section

namespace Cert.KernelIdeal.Table

open Cert.KernelIdeal Cert.KernelIdeal.Gen Idealize.ShloMosaic Idealize.ShloMosaic.TcCoe Idealize.SL.Sem Cert.IdWords

variable {F : FTy → Type} [FloatOps F]
variable (m : (ℓ : Loc nD τ sig) → Buf (Elt F) ℓ)

/-- The slab of a row below 16 is a block of the weight array, and it takes every sublane row of its slab. -/
theorem ok_block (ix : Fin 3 → Nat) (w : BitVec 32) (hw : w.toNat < 16) (e : ix = ![w.toNat, 0, 0]) :
    ∃ h : (∀ a, (ix a + 1) * S1x4096x64.size a ≤ S16x4096x64.size a),
      EltTy.bits .bf16 = 32 ∨ (Rect.block (s := S16x4096x64) S1x4096x64.size ix h).WholeWords (EltTy.packing .bf16) := by
  subst e
  have h : ∀ a, ((![w.toNat, 0, 0] : Fin 3 → Nat) a + 1) * S1x4096x64.size a ≤ S16x4096x64.size a := by
    intro a
    fin_cases a <;> simp [S1x4096x64, S16x4096x64] <;> omega
  exact ⟨h, Or.inr (Or.inr ⟨by decide, rfl, by show (![w.toNat, 0, 0] : Fin 3 → Nat) 1 * _ = 0; simp, rfl⟩)⟩

/-- For valid ids the pipeline's side condition holds. -/
theorem ok_of_valid (hv : ∀ i, Valid (ids m i)) : Ok m := fun i => ok_block _ _ (tbl_lt m hv _) rfl

end Cert.KernelIdeal.Table

end
-- ==== Proof.KernelIdealBlocks.lean ====
/-
  The blocks the pipeline hands the kernel body at a grid point (b, s) — b one of the 32 batches, s one of the
  4 tiles of 512 sequence rows — read as entries of the arrays the kernel was launched on:
    the x block is rows 512·s … 512·s + 511 of batch b of x;
    the weight block is the whole [4096, 64] slab of the weight table at the row the prefetched table names
    for batch b, which is the floor modulus by 16 of the batch's adapter id.
  And what the body leaves in the output block is the payload of these two blocks.
-/
import proofs.«406833_j34007551050178_3_alg».proof.Proof.KernelIdealPiece
import proofs.«406833_j34007551050178_3_alg».proof.Proof.KernelIdealOk
import Idealize.ShloMosaic.Lib.ValueIdx
import Idealize.ShloMosaic.PureOps.Ideal

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.IdWords Cert.KernelIdeal.Table

variable (m : (ℓ : Loc nD τ sig) → Buf (Elt Ideal) ℓ) (hO : Ok m)

/-- The two input blocks at a point and the two arrays they are cut from, at their literal types. -/
abbrev xblk (c : Dev nD) (t : Fin (cfgM m hO).N) : Vec Ideal S1x512x4096 .f32 := iblk m hO c 0 t
abbrev wblk (c : Dev nD) (t : Fin (cfgM m hO).N) : Vec Ideal S1x4096x64 .bf16 := iblk m hO c 1 t
abbrev xarr (c : Dev nD) : S32x2048x4096.Idx → EReal := V m c main_arg0
abbrev warr (c : Dev nD) : S16x4096x64.Idx → EReal := V m c main_v1

/-- The batch and the sequence tile of a grid point. -/
def bOf (t : Fin grid0.N) : Fin 32 := ⟨(grid0.coords t 0).val, (grid0.coords t 0).isLt⟩
def sOf (t : Fin grid0.N) : Fin 4 := ⟨(grid0.coords t 1).val, (grid0.coords t 1).isLt⟩

/-- The x window's index map at a grid point is (batch, tile, 0): decided over the 128 points. -/
theorem idx0 : ∀ t : Fin grid0.N, cc0_transform_0 (grid0.coords t) 0 = (bOf t).val ∧ cc0_transform_0 (grid0.coords t) 1 = (sOf t).val
    ∧ cc0_transform_0 (grid0.coords t) 2 = 0 := by decide +kernel
/-- So is the output window's. -/
theorem idx2 : ∀ t : Fin grid0.N, cc0_transform_2 (grid0.coords t) 0 = (bOf t).val ∧ cc0_transform_2 (grid0.coords t) 1 = (sOf t).val
    ∧ cc0_transform_2 (grid0.coords t) 2 = 0 := by decide +kernel
/-- The offset at which the weight window's index map reads the table is the batch. -/
theorem idx1 : ∀ t : Fin grid0.N, BitVec.toNat (Scalar.indexCast (BitVec.ofNat 32 (grid0.coords t 0).val)) = (bOf t).val := by
  decide +kernel
/-- Every (batch, tile) pair is some grid point's. -/
theorem idx_onto : ∀ (b : Fin 32) (s : Fin 4), ∃ t : Fin grid0.N, bOf t = b ∧ sOf t = s := by decide +kernel

/-- The output block after the body at point `t` is the payload of the point's two input blocks. -/
theorem outs_eq (c : Dev nD) (t : Fin (cfgM m hO).N) :
    outsAt0 m hO c t = k0_pay1 (F := Ideal) (xblk m hO c t) (wblk m hO c t) :=
  Piece.out_eq (F := Ideal) c (grid0.coords t) (ms0_0 m hO t) (hs0_0 m hO t) (ms0_1 m hO t) (hs0_1 m hO t) (ms0_2 m hO t) (hs0_2 m hO t)
    (xblk m hO c t) (wblk m hO c t) (tbl m 0)

/-- Entry (0, r, k) of the x block at point (b, s) is x[b, 512·s + r, k]. -/
theorem xblk_apply (c : Dev nD) (t : Fin (cfgM m hO).N) (r : Fin 512) (k : Fin 4096) (R : Fin 2048) (hR : R.val = (sOf t).val * 512 + r.val) :
    xblk m hO c t (ix3 (0 : Fin 1) r k) = xarr m c (ix3 (bOf t) R k) := by
  show V m c main_arg0 ((((cfgM m hO).win 0).blk t).view.emb (ix3 (0 : Fin 1) r k)) = V m c main_arg0 (ix3 (bOf t) R k)
  congr 1
  funext a
  apply Fin.ext
  obtain ⟨e0, e1, e2⟩ := idx0 t
  match a with
  | ⟨0, _⟩ => show cc0_transform_0 (grid0.coords t) 0 * 1 + 1 * ((0 : Fin 1) : Nat) = (bOf t).val; rw [e0]; simp
  | ⟨1, _⟩ => show cc0_transform_0 (grid0.coords t) 1 * 512 + 1 * r.val = R.val; rw [e1, hR]; omega
  | ⟨2, _⟩ => show cc0_transform_0 (grid0.coords t) 2 * 4096 + 1 * k.val = k.val; rw [e2]; omega

/-- The weight window's index map at a grid point: (the table's word for the batch, 0, 0), the word being the
    floor modulus by 16 of the batch's adapter id. -/
theorem tword (t : Fin grid0.N) :
    cc0_transform_1 k0_off1_inb numel1_S1 (tbl m) (grid0.coords t) = ![(floorMod16 (ids m (ix1 (bOf t)))).toNat, 0, 0] := by
  unfold cc0_transform_1
  dsimp only
  refine congrArg (fun w : BitVec 32 => (![w.toNat, 0, 0] : Fin 3 → Nat)) ?_
  show tbl m 0 _ = _
  refine (tbl_apply m _).trans ?_
  refine congrArg (fun x => floorMod16 (ids m x)) ?_
  funext a
  apply Fin.ext
  match a with
  | ⟨0, _⟩ =>
    show BitVec.toNat (Scalar.indexCast (BitVec.ofNat 32 (grid0.coords t 0).val))
      + 1 * (Shape.Idx.first (s := S1) (numel1_S1.symm ▸ Nat.one_pos) (0 : Fin 1)).val = (bOf t).val
    rw [idx1 t]
    have h := (Shape.Idx.first (s := S1) (numel1_S1.symm ▸ Nat.one_pos) (0 : Fin 1)).isLt
    have e : S1.size (0 : Fin 1) = 1 := by decide
    omega

/-- Entry (0, k, j) of the weight block at point (b, s) is entry (row, k, j) of the launched weight array, for the
    row the table names for batch b. -/
theorem wblk_apply (c : Dev nD) (t : Fin (cfgM m hO).N) (k : Fin 4096) (j : Fin 64) (row : Fin 16)
    (hrow : row.val = (floorMod16 (ids m (ix1 (bOf t)))).toNat) :
    wblk m hO c t (ix3 (0 : Fin 1) k j) = warr m c (ix3 row k j) := by
  show V m c main_v1 ((((cfgM m hO).win 1).blk t).view.emb (ix3 (0 : Fin 1) k j)) = V m c main_v1 (ix3 row k j)
  congr 1
  funext a
  apply Fin.ext
  have e := tword m t
  match a with
  | ⟨0, _⟩ =>
    show cc0_transform_1 k0_off1_inb numel1_S1 (tbl m) (grid0.coords t) 0 * 1 + 1 * ((0 : Fin 1) : Nat) = row.val
    rw [e, hrow]; simp
  | ⟨1, _⟩ =>
    show cc0_transform_1 k0_off1_inb numel1_S1 (tbl m) (grid0.coords t) 1 * 4096 + 1 * k.val = k.val
    rw [e]; simp
  | ⟨2, _⟩ =>
    show cc0_transform_1 k0_off1_inb numel1_S1 (tbl m) (grid0.coords t) 2 * 64 + 1 * j.val = j.val
    rw [e]; simp

end Cert.KernelIdeal.Blocks

end
-- ==== Proof.KernelIdealPayload.lean ====
/-
  The kernel body's arithmetic at one entry, over the extended reals. The body drops the leading unit axis of
  its two blocks, changes the x block's format (the identity on extended reals), multiplies the [512, 4096]
  block by the [4096, 64] block into a zero accumulator, and puts the unit axis back: entry (0, r, c) of the
  result is the sum over the 4096 features k of xblock[0, r, k] · wblock[0, k, c].
-/
import proofs.«406833_j34007551050178_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The product's left operand is read at the output's row … -/
theorem lhs_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide),
    dif_pos (show (0 : Fin S512x4096.rank) ∈ dot_S512x4096_S4096x64_S512x64_1_0_0_1_n_n.lhsNonContracting by decide)]
  rfl
/-- … and at the summed feature; -/
theorem lhs_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
/-- the right operand at the summed feature … -/
theorem rhs_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
/-- … and at the output's column. -/
theorem rhs_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide),
    dif_pos (show (1 : Fin S4096x64.rank) ∈ dot_S512x4096_S4096x64_S512x64_1_0_0_1_n_n.rhsNonContracting by decide)]
  rfl

/-- Dropping the x block's unit axis: entry (r, k) is entry (0, r, k). -/
theorem xcast_apply (x0 : Vec Ideal S1x512x4096 .f32) (r : Fin 512) (k : Fin 4096) :
    shapeCast S512x4096 x0 shapeCasts_S1x512x4096_S512x4096 (ix2 r k) = x0 (ix3 (0 : Fin 1) r k) :=
  shapeCast_apply _ _ _ _ (by rw [Shape.rowMajor_val_two, Shape.rowMajor_val_three]; simp)

/-- Dropping the weight block's unit axis: entry (k, c) is entry (0, k, c). -/
theorem wcast_apply (x1 : Vec Ideal S1x4096x64 .bf16) (k : Fin 4096) (c : Fin 64) :
    shapeCast S4096x64 x1 shapeCasts_S1x4096x64_S4096x64 (ix2 k c) = x1 (ix3 (0 : Fin 1) k c) :=
  shapeCast_apply _ _ _ _ (by rw [Shape.rowMajor_val_two, Shape.rowMajor_val_three]; simp)

/-- The payload at (0, r, c): the sum over the features of the products. -/
theorem pay_apply (x0 : Vec Ideal S1x512x4096 .f32) (x1 : Vec Ideal S1x4096x64 .bf16) (r : Fin 512) (c : Fin 64) :
    k0_pay1 (F := Ideal) x0 x1 (ix3 (0 : Fin 1) r c) = ∑ k : Fin 4096, x0 (ix3 (0 : Fin 1) r k) * x1 (ix3 (0 : Fin 1) k c) := by
  unfold k0_pay1
  refine (shapeCast_apply _ _ (ix3 (0 : Fin 1) r c) (ix2 r c)
    (by rw [Shape.rowMajor_val_two, Shape.rowMajor_val_three]; simp)).trans ?_
  simp only [matmul]
  rw [Ideal.matmul_constant_zero_apply,
    ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 r c)
      ((contrEquiv1 dot_S512x4096_S4096x64_S512x64_1_0_0_1_n_n 4096 rfl rfl).symm k) = ix2 r k := funext fun a => Fin.ext (by
    match a with
    | ⟨0, _⟩ => exact lhs_0 _ _
    | ⟨1, _⟩ => exact (lhs_1 _ _).trans hk)
  have er : dot_S512x4096_S4096x64_S512x64_1_0_0_1_n_n.rhsIdx (ix2 r c)
      ((contrEquiv1 dot_S512x4096_S4096x64_S512x64_1_0_0_1_n_n 4096 rfl rfl).symm k) = ix2 k c := funext fun a => Fin.ext (by
    match a with
    | ⟨0, _⟩ => exact (rhs_0 _ _).trans hk
    | ⟨1, _⟩ => exact rhs_1 _ _)
  rw [el, er]
  show shapeCast S512x4096 x0 shapeCasts_S1x512x4096_S512x4096 (ix2 r k) * shapeCast S4096x64 x1 shapeCasts_S1x4096x64_S4096x64 (ix2 k c) = _
  rw [xcast_apply, wcast_apply]

end Cert.KernelIdeal.Payload

end
-- ==== Proof.KernelIdealArrays.lean ====
/-
  The weight array the kernel's second window is cut from. The host code converts the f32 weight table to bf16
  before the kernel; over the extended reals a change of float format is the identity, so the array the
  pipeline stages from is the weight table as launched.
-/
import proofs.«406833_j34007551050178_3_alg».proof.Proof.Gen.KernelIdeal.Frame
import Idealize.ShloMosaic.Lib.StableHlo.Run
import Idealize.ShloMosaic.PureOps.Ideal

noncomputable section

namespace Cert.KernelIdeal.Arrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 1000000 in
/-- The converted weight table, as the region finds it, is the launched weight table. -/
theorem warr_eq (c : Dev nD) :
    (V m c main_v1 : S16x4096x64.Idx → EReal) = (m ((c : Thread nD τ).loc main_arg2) : S16x4096x64.Idx → EReal) := by
  unfold V
  simp only [hostOps0, hostOps0_1, hostOps0_2, List.flatten_cons, List.flatten_nil, List.append_nil, List.cons_append, List.nil_append]
  after_results
  rfl

end Cert.KernelIdeal.Arrays

end
-- ==== Proof.Spec.lean ====
/-
  The result both programs compute, as one function of the three argument arrays over the extended reals:

      out[b, r, c] = Σ_{k < 4096}  x[b, r, k] · weight[row(b), k, c]

  where row(b) is the adapter id of batch b normalised the NumPy way (a negative id counts from the end of the
  16 rows), read as a signed number and clamped into [0, 15]. For a valid id (-16 ≤ id < 16) the clamp does
  nothing and row(b) is also the id's floor modulus by 16.
-/
import Idealize.ShloMosaic.PureOps.Ideal
import Idealize.ShloMosaic.Lib.ValueIdx
import proofs.«406833_j34007551050178_3_alg».proof.Proof.IdWords

noncomputable section

open scoped BigOperators

namespace Cert.Spec

open Idealize.ShloMosaic Idealize.ShloMosaic.ValueIdx Cert.IdWords

abbrev SX : Shape := ⟨3, ![32, 2048, 4096]⟩
abbrev SIds : Shape := ⟨1, ![32]⟩
abbrev SW : Shape := ⟨3, ![16, 4096, 64]⟩
abbrev SOut : Shape := ⟨3, ![32, 2048, 64]⟩

/-- The weight row batch `b` multiplies by. -/
def row (ids : SIds.Idx → BitVec 32) (b : Fin 32) : Fin 16 :=
  ⟨min (wrap16 (ids (ix1 b))).toInt.toNat 15, by omega⟩

/-- For a valid id the row is the floor modulus by 16 of the id, as a natural number. -/
theorem row_val_of_valid (ids : SIds.Idx → BitVec 32) (b : Fin 32) (h : Valid (ids (ix1 b))) :
    (row ids b).val = (floorMod16 (ids (ix1 b))).toNat := by
  obtain ⟨e, hlt, hint⟩ := floorMod16_eq_wrap16 _ h
  show min (wrap16 (ids (ix1 b))).toInt.toNat 15 = _
  rw [e, hint]
  omega

/-- The batched product of `x` with the rows of `w` the ids select. -/
def G (x : SX.Idx → EReal) (ids : SIds.Idx → BitVec 32) (w : SW.Idx → EReal) : SOut.Idx → EReal :=
  fun i =>
    let b : Fin 32 := ⟨(i 0).val, (i 0).isLt⟩
    let r : Fin 2048 := ⟨(i 1).val, (i 1).isLt⟩
    let c : Fin 64 := ⟨(i 2).val, (i 2).isLt⟩
    ∑ k : Fin 4096, x (ix3 b r k) * w (ix3 (row ids b) k c)

theorem G_apply (x : SX.Idx → EReal) (ids : SIds.Idx → BitVec 32) (w : SW.Idx → EReal) (b : Fin 32) (r : Fin 2048) (c : Fin 64) :
    G x ids w (ix3 b r c) = ∑ k : Fin 4096, x (ix3 b r k) * w (ix3 (row ids b) k c) := rfl

end Cert.Spec

end
-- ==== Proof.KernelIdealFinal.lean ====
/-
  The kernel's result array. At grid point (b, s) the body writes, into rows 512·s … 512·s + 511 of batch b of
  the output, the products of those rows of x with the weight slab the table names for b; for valid ids that
  slab is the row `Spec.row` of the weight table. The 128 blocks tile the [32, 2048, 64] output, so after
  the last point the output array is `Spec.G` of the three arrays the kernel was launched on.
-/
import proofs.«406833_j34007551050178_3_alg».proof.Proof.KernelIdealBlocks
import proofs.«406833_j34007551050178_3_alg».proof.Proof.KernelIdealPayload
import proofs.«406833_j34007551050178_3_alg».proof.Proof.KernelIdealArrays
import proofs.«406833_j34007551050178_3_alg».proof.Proof.Spec

set_option maxRecDepth 16384

noncomputable section

open scoped BigOperators

namespace Cert.KernelIdeal.Final

open Cert.KernelIdeal Cert.KernelIdeal.Gen Idealize.ShloMosaic Idealize.ShloMosaic.TcCoe Idealize.SL.Sem
open Idealize.ShloMosaic.ValueIdx Cert.Spec Cert.IdWords Cert.KernelIdeal.Table Cert.KernelIdeal.Blocks
open Idealize.ShloMosaic.Pipeline (Dat)

variable (m : (ℓ : Loc nD τ sig) → Buf (Elt Ideal) ℓ) (ρ : Dev nD → PrngReg)

/-- The batched product over the arrays as the kernel's region finds them. -/
abbrev GV (c : Dev nD) : S32x2048x64.Idx → EReal := G (xarr m c) (ids m) (warr m c)

/-- One entry of the block point (b, s) writes: entry (0, r, j) of the payload is entry (b, 512·s + r, j) of the
    batched product. The sums agree term by term: the x block's row r is x's row 512·s + r, and the weight
    block is the slab at the floor modulus of the id, which for a valid id is `row`. -/
theorem point_eq (hO : Ok m) (hv : ∀ i, Valid (ids m i)) (c : Dev nD) (t : Fin (cfgM m hO).N) (r : Fin 512) (j : Fin 64) (R : Fin 2048)
    (hR : R.val = (sOf t).val * 512 + r.val) :
    k0_pay1 (F := Ideal) (xblk m hO c t) (wblk m hO c t) (ix3 (0 : Fin 1) r j) = GV m c (ix3 (bOf t) R j) := by
  refine (Payload.pay_apply (xblk m hO c t) (wblk m hO c t) r j).trans ?_
  show _ = ∑ k : Fin 4096, xarr m c (ix3 (bOf t) R k) * warr m c (ix3 (row (ids m) (bOf t)) k j)
  refine Finset.sum_congr rfl fun k _ => ?_
  rw [xblk_apply m hO c t r k R hR,
    wblk_apply m hO c t k j (row (ids m) (bOf t)) (row_val_of_valid (ids m) (bOf t) (hv _))]

/-- What point `t` writes back is its block of the batched product. -/
theorem flushed_eq (hO : Ok m) (hv : ∀ i, Valid (ids m i)) (c : Dev nD) (t : Fin (cfgM m hO).N) :
    (dats m hO 0 c).flushed 2 t = (((cfgM m hO).win 2).blk t).view.read (Elt Ideal) (GV m c) := by
  show ((cfgM m hO).win 2).cut (grid0.coords t) ((dats m hO 0 c).after 2 t) = _
  rw [after0_2, outs_eq]
  refine funext fun (y : S1x512x64.Idx) => ?_
  have h0 : (y 0).val < 1 := (y 0).isLt
  have h1 : (y 1).val < 512 := (y 1).isLt
  have h2 : (y 2).val < 64 := (y 2).isLt
  obtain ⟨e0, e1, e2⟩ := idx2 t
  have hs : (sOf t).val < 4 := (sOf t).isLt
  have el : ((cfgM m hO).win 2).xinj (grid0.coords t) y = ix3 (0 : Fin 1) ⟨(y 1).val, h1⟩ ⟨(y 2).val, h2⟩ := by
    funext a; apply Fin.ext
    match a with
    | ⟨0, _⟩ => show (y 0).val = 0; omega
    | ⟨1, _⟩ => rfl
    | ⟨2, _⟩ => rfl
  have er : (((cfgM m hO).win 2).blk t).view.emb y
      = ix3 (bOf t) ⟨(sOf t).val * 512 + (y 1).val, by omega⟩ ⟨(y 2).val, h2⟩ := by
    funext a; apply Fin.ext
    match a with
    | ⟨0, _⟩ => show cc0_transform_2 (grid0.coords t) 0 * 1 + 1 * (y 0).val = (bOf t).val; rw [e0]; omega
    | ⟨1, _⟩ => show cc0_transform_2 (grid0.coords t) 1 * 512 + 1 * (y 1).val = (sOf t).val * 512 + (y 1).val; rw [e1]; omega
    | ⟨2, _⟩ => show cc0_transform_2 (grid0.coords t) 2 * 64 + 1 * (y 2).val = (y 2).val; rw [e2]; omega
  show k0_pay1 (F := Ideal) (xblk m hO c t) (wblk m hO c t) (((cfgM m hO).win 2).xinj (grid0.coords t) y)
    = GV m c ((((cfgM m hO).win 2).blk t).view.emb y)
  rw [el, er]
  exact point_eq m hO hv c t _ _ _ rfl

/-- An index of the output array each of whose coordinates is in the range of point `t`'s block is in that block. -/
theorem mem_blk (hO : Ok m) (t : Fin (cfgM m hO).N) (i : S32x2048x64.Idx)
    (h : ∀ a : Fin 3, cc0_transform_2 (grid0.coords t) a * S1x512x64.size a ≤ (i a).val
      ∧ (i a).val < cc0_transform_2 (grid0.coords t) a * S1x512x64.size a + S1x512x64.size a) :
    i ∈ (((cfgM m hO).win 2).blk t).view.set := by
  have hset := View.set_slice_whole main_v2 (((cfgM m hO).win 2).rect t)
  refine (congrArg (fun S => i ∈ S) hset).mpr ?_
  exact Rect.mem_set_unit.mpr h

/-- Every index of the output is in some point's block: batch b's rows 512·s … are point (b, s)'s. -/
theorem cover (hO : Ok m) (i : S32x2048x64.Idx) :
    ∃ t : Fin (cfgM m hO).N, ((cfgM m hO).win 2).flush t = true ∧ i ∈ (((cfgM m hO).win 2).blk t).view.set := by
  have h0 : (i 0).val < 32 := (i 0).isLt
  have h1 : (i 1).val < 2048 := (i 1).isLt
  have h2 : (i 2).val < 64 := (i 2).isLt
  obtain ⟨t, hb, hs⟩ := idx_onto ⟨(i 0).val, h0⟩ ⟨(i 1).val / 512, by omega⟩
  obtain ⟨e0, e1, e2⟩ := idx2 t
  have hb' : (bOf t).val = (i 0).val := congrArg Fin.val hb
  have hs' : (sOf t).val = (i 1).val / 512 := congrArg Fin.val hs
  refine ⟨t, flush0_2 (adm m hO) t, mem_blk m hO t i fun a => ?_⟩
  match a with
  | ⟨0, _⟩ =>
    show cc0_transform_2 (grid0.coords t) 0 * 1 ≤ (i 0).val ∧ (i 0).val < cc0_transform_2 (grid0.coords t) 0 * 1 + 1
    rw [e0, hb']; omega
  | ⟨1, _⟩ =>
    show cc0_transform_2 (grid0.coords t) 1 * 512 ≤ (i 1).val ∧ (i 1).val < cc0_transform_2 (grid0.coords t) 1 * 512 + 512
    rw [e1, hs']; omega
  | ⟨2, _⟩ =>
    show cc0_transform_2 (grid0.coords t) 2 * 64 ≤ (i 2).val ∧ (i 2).val < cc0_transform_2 (grid0.coords t) 2 * 64 + 64
    rw [e2]; omega

/-- The output array after the last point is the batched product. -/
theorem final (hO : Ok m) (hv : ∀ i, Valid (ids m i)) (c : Dev nD) : (dats m hO 0 c).arrAt 2 (cfgM m hO).N = GV m c :=
  (dats m hO 0 c).arrAt_eq_of_cover 2 (GV m c) (fun t _ => flushed_eq m hO hv c t) (cover m hO)

/-- Over the launched arrays: x and the ids were never written before the kernel, and the converted weight table
    is the weight table. -/
theorem GV_eq (c : Dev nD) :
    GV m c = G (m ((c : Thread nD τ).loc main_arg0)) (m ((c : Thread nD τ).loc main_arg1)) (m ((c : Thread nD τ).loc main_arg2)) := by
  obtain rfl : c = 0 := Subsingleton.elim _ _
  show G (V m 0 main_arg0) (ids m) (V m 0 main_v1) = _
  rw [V_main_arg0, Arrays.warr_eq]

/-- The kernel's run: the result array ends at the batched product of the launched arrays, which end unchanged. -/
theorem run (hO : Ok m) (hv : ∀ i, Valid (ids m i)) : θ_run defs (onTc (τ := τ) (main (F := Ideal))) ⟨m, fun _ => 0, ρ⟩ fun r => ∀ c : Dev nD,
      r.2.mem ((c.tc : Thread nD τ).loc main_v2)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 2).trans ((final m hO hv c).trans (GV_eq m c)),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.KernelIdeal.Final

end
-- ==== Proof.RefValue.lean ====
/-
  The reference computes G. Its gather takes, for batch b, the slab of the weight array at the id normalised
  the NumPy way (a negative id moved up by 16), read as a signed number and clamped into [0, 15] — the row
  `Spec.row` names — with the other two coordinates passed through; its batched product then sums, over the
  4096 input features, x[b, r, k] times that slab's [k, c].
-/
import proofs.«406833_j34007551050178_3_alg».proof.Proof.Gen.ReferenceIdeal.Read
import proofs.«406833_j34007551050178_3_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Spec Cert.IdWords

local notation "gd" => gather_S16x4096x64_S32x1_S32x4096x64_12_0_n_n_0_1_1409664

/-- The normalised id the gather reads for batch `b`. -/
theorem start_word (x1 : IVec S32 32) (i : S32x1.Idx) :
    val_main_v5 (F := Ideal) x1 i = wrap16 (x1 (idx_main_v5 i)) := by
  rw [val_main_v5_apply]
  rfl

/-- Along the row axis the gather's operand index is the clamped, normalised id. -/
theorem opIdx_0 (x1 : IVec S32 32) (b : Fin 32) (k : Fin 4096) (c : Fin 64) :
    (GatherDims.operandIdx gd (ix3 b k c) (val_main_v5 (F := Ideal) x1) (0 : Fin S16x4096x64.rank)).val = (row x1 b).val := by
  show GatherDims.start gd (ix3 b k c) (val_main_v5 (F := Ideal) x1) (0 : Fin S16x4096x64.rank)
      + GatherDims.batchCoord gd (ix3 b k c) (0 : Fin S16x4096x64.rank)
      + GatherDims.offCoord gd (ix3 b k c) (0 : Fin S16x4096x64.rank) = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin S16x4096x64.rank) ∈ GatherDims.startIndexMap gd from List.mem_singleton.mpr rfl), start_word]
  have hsi : idx_main_v5 (GatherDims.siIdx gd (ix3 b k c) ⟨List.idxOf (0 : Fin S16x4096x64.rank) (GatherDims.startIndexMap gd),
      List.idxOf_lt_length_iff.2 (List.mem_singleton.mpr rfl)⟩) = ix1 b := by
    funext a; refine Fin.ext ?_
    match a with
    | ⟨0, _⟩ => rfl
  rw [hsi]
  rfl

/-- Along the feature axis it is the result's own coordinate. -/
theorem opIdx_1 (x1 : IVec S32 32) (b : Fin 32) (k : Fin 4096) (c : Fin 64) :
    (GatherDims.operandIdx gd (ix3 b k c) (val_main_v5 (F := Ideal) x1) (1 : Fin S16x4096x64.rank)).val = k.val := by
  show GatherDims.start gd (ix3 b k c) (val_main_v5 (F := Ideal) x1) (1 : Fin S16x4096x64.rank)
      + GatherDims.batchCoord gd (ix3 b k c) (1 : Fin S16x4096x64.rank)
      + GatherDims.offCoord gd (ix3 b k c) (1 : Fin S16x4096x64.rank) = _
  rw [GatherDims.batchCoord_eq_zero _ _ _ List.not_mem_nil, Nat.add_zero]
  unfold GatherDims.start
  rw [dif_neg (show ¬(1 : Fin S16x4096x64.rank) ∈ GatherDims.startIndexMap gd by decide), Nat.zero_add]
  unfold GatherDims.offCoord
  rw [dif_pos (show (1 : Fin S16x4096x64.rank) ∈ GatherDims.sKept gd by decide)]
  rfl

/-- And so along the output-column axis. -/
theorem opIdx_2 (x1 : IVec S32 32) (b : Fin 32) (k : Fin 4096) (c : Fin 64) :
    (GatherDims.operandIdx gd (ix3 b k c) (val_main_v5 (F := Ideal) x1) (2 : Fin S16x4096x64.rank)).val = c.val := by
  show GatherDims.start gd (ix3 b k c) (val_main_v5 (F := Ideal) x1) (2 : Fin S16x4096x64.rank)
      + GatherDims.batchCoord gd (ix3 b k c) (2 : Fin S16x4096x64.rank)
      + GatherDims.offCoord gd (ix3 b k c) (2 : Fin S16x4096x64.rank) = _
  rw [GatherDims.batchCoord_eq_zero _ _ _ List.not_mem_nil, Nat.add_zero]
  unfold GatherDims.start
  rw [dif_neg (show ¬(2 : Fin S16x4096x64.rank) ∈ GatherDims.startIndexMap gd by decide), Nat.zero_add]
  unfold GatherDims.offCoord
  rw [dif_pos (show (2 : Fin S16x4096x64.rank) ∈ GatherDims.sKept gd by decide)]
  rfl

/-- The gathered slab at (b, k, c) is the weight array at (row b, k, c). -/
theorem gather_apply (x1 : IVec S32 32) (x2 : S16x4096x64.Idx → EReal) (b : Fin 32) (k : Fin 4096) (c : Fin 64) :
    val_main_v6 (F := Ideal) x1 x2 (ix3 b k c) = x2 (ix3 (row x1 b) k c) := by
  unfold val_main_v6 Host.gather
  congr 1
  funext a
  refine Fin.ext ?_
  match a with
  | ⟨0, _⟩ => exact opIdx_0 x1 b k c
  | ⟨1, _⟩ => exact opIdx_1 x1 b k c
  | ⟨2, _⟩ => exact opIdx_2 x1 b k c

/-- The reference's result is G of its three arguments. -/
theorem result_eq (x0 : S32x2048x4096.Idx → EReal) (x1 : IVec S32 32) (x2 : S16x4096x64.Idx → EReal) :
    val_main_v7 (F := Ideal) x0 x1 x2 = G x0 x1 x2 := by
  funext i
  obtain ⟨b, r, c, rfl⟩ : ∃ (b : Fin 32) (r : Fin 2048) (c : Fin 64), i = ix3 b r c := ⟨i 0, i 1, i 2, eq_ix3 i⟩
  rw [val_main_v7_apply, G_apply]
  refine Finset.sum_congr rfl fun k _ => ?_
  have el : lidx_main_v7 (ix3 b r c) k = ix3 b r k := by
    funext a; match a with | ⟨0, _⟩ => rfl | ⟨1, _⟩ => rfl | ⟨2, _⟩ => rfl
  have er : ridx_main_v7 (ix3 b r c) k = ix3 b k c := by
    funext a; match a with | ⟨0, _⟩ => rfl | ⟨1, _⟩ => rfl | ⟨2, _⟩ => rfl
  rw [el, er, gather_apply]

end Cert.ReferenceIdeal.RefValue

end
-- ==== Proof.lean ====
/-
  A batched per-sample LoRA matrix product: for each of 32 batches b, the [2048, 4096] slice x[b] is multiplied by
  one [4096, 64] slab of a table of 16 weight slabs, the slab chosen by the batch's adapter id.

  The kernel reduces each id modulo 16 on the host (the floor modulus), hands the result to the pipeline as a
  prefetched table that the weight window's index map reads, and at grid point (b, s) multiplies rows
  512·s … 512·s + 511 of x[b] by the slab the table names for b. The reference indexes the table NumPy-style:
  a negative id is moved up by 16, the gather clamps the result into [0, 15], and a batched dot_general
  multiplies. Over the extended reals both are

      out[b, r, c] = Σ_{k < 4096} x[b, r, k] · weight[row(b), k, c]                      (Spec.G)

  provided every id is a valid NumPy index of an axis of extent 16, -16 ≤ id < 16: there the floor modulus and
  the NumPy normalisation agree and land in [0, 16), so the clamp does nothing (IdWords). Outside that range the
  reference's index is out of range and clamped while the kernel wraps, and the two read different slabs; the
  precondition therefore carries the range of the ids beside the finiteness of the floats (which this proof
  never needs: the two sums are the same sum, term by term).

  The frames of the two kernel programs hold where the table's words name slabs inside the weight array, which
  the id range gives (KernelOk, KernelIdealOk). The kernel's result array is read off the generated frame run:
  the body's one store is the payload of its two blocks (KernelIdealPiece), the payload at an entry is the sum
  over the features (KernelIdealPayload), the blocks are the rows of x and the slab the table names
  (KernelIdealBlocks), and the 128 output blocks tile the result (KernelIdealFinal). The reference's result is
  its generated run, with the gather read by hand (RefValue). The ideal pass rewrote nothing, so there is
  nothing to preserve.
-/
import proofs.«406833_j34007551050178_3_alg».proof.Defs
import proofs.«406833_j34007551050178_3_alg».proof.Proof.Gen.Kernel
import proofs.«406833_j34007551050178_3_alg».proof.Proof.Gen.Kernel.Skeleton
import proofs.«406833_j34007551050178_3_alg».proof.Proof.Gen.Kernel.Launch
import proofs.«406833_j34007551050178_3_alg».proof.Proof.Gen.Kernel.Points
import proofs.«406833_j34007551050178_3_alg».proof.Proof.Gen.Kernel.Frame
import proofs.«406833_j34007551050178_3_alg».proof.Proof.Gen.KernelIdeal
import proofs.«406833_j34007551050178_3_alg».proof.Proof.Gen.KernelIdeal.Skeleton
import proofs.«406833_j34007551050178_3_alg».proof.Proof.Gen.KernelIdeal.Launch
import proofs.«406833_j34007551050178_3_alg».proof.Proof.Gen.KernelIdeal.Points
import proofs.«406833_j34007551050178_3_alg».proof.Proof.Gen.KernelIdeal.Frame
import proofs.«406833_j34007551050178_3_alg».proof.Proof.Gen.ReferenceIdeal
import proofs.«406833_j34007551050178_3_alg».proof.Proof.Gen.ReferenceIdeal.Run
import proofs.«406833_j34007551050178_3_alg».proof.Proof.Gen.ReferenceIdeal.Read
import proofs.«406833_j34007551050178_3_alg».proof.Proof.Gen.Pre_finite_inputs
import proofs.«406833_j34007551050178_3_alg».proof.Proof.PreIds
import proofs.«406833_j34007551050178_3_alg».proof.Proof.KernelOk
import proofs.«406833_j34007551050178_3_alg».proof.Proof.KernelIdealFinal
import proofs.«406833_j34007551050178_3_alg».proof.Proof.RefValue
import Idealize.ShloMosaic.Adequacy
import Idealize.ShloMosaic.Init

noncomputable section

namespace Cert.Proof

open Idealize.ShloMosaic Idealize.SL.Sem

namespace Claims

/-- The word-level kernel runs and keeps its arguments: under the precondition its table names slabs inside the
    weight array. -/
theorem frame_k : Cert.frame_Kernel := fun m ρ h =>
  Cert.Kernel.Gen.frame m ρ (Cert.Kernel.Table.ok_of_valid m fun i => Cert.PreIds.valid_of_pre _ _ _ (h 0) i)

/-- So does the idealized kernel. -/
theorem frame_ki : Cert.frame_KernelIdeal := fun m ρ h =>
  Cert.KernelIdeal.Gen.frame m ρ (Cert.KernelIdeal.Table.ok_of_valid m fun i => Cert.PreIds.valid_of_pre _ _ _ (h 0) i)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the batched product `Spec.G` of the arguments they agree on. -/
theorem algebraic : Cert.algebraic_KernelIdeal_ReferenceIdeal := by
  intro m ρ m' ρ' hpre hagree
  have hv : ∀ i, Cert.IdWords.Valid (Cert.KernelIdeal.Table.ids m i) := fun i => Cert.PreIds.valid_of_pre _ _ _ (hpre 0) i
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ (Cert.KernelIdeal.Table.ok_of_valid m hv) hv, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
